-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S28x16384 : Shape := ⟨2, ![28, 16384]⟩
abbrev S4x128 : Shape := ⟨2, ![4, 128]⟩
abbrev S128 : Shape := ⟨1, ![128]⟩
abbrev S5x128 : Shape := ⟨2, ![5, 128]⟩
abbrev S_ : Shape := ⟨0, ![]⟩

class Facts : Prop where
  bcast_S_S28x16384 : S_.BroadcastsInDim S28x16384 (![] : Fin 0 → Fin S28x16384.rank)
  reducesTo_S28x16384_S_d0_1 : S28x16384.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg4 : FVec F S128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S28x16384 .f32) (main_arg1 : FVec F S4x128 .f32) (main_arg2 : FVec F S128 .f32) (main_arg3 : FVec F S5x128 .f32) (main_arg4 : FVec F S128 .f32) : IVec S_ 1 :=
  let main_v0 : FVec F S28x16384 .f32 := Host.absf main_arg0
  let main_cst : FVec F S_ .f32 := constant S_ .f32 0x7F800000#32
  let main_v1 : FVec F S28x16384 .f32 := broadcastInDim S28x16384 ![] bcast_S_S28x16384 main_cst
  let main_v2 : IVec S28x16384 1 := cmpf .olt main_v0 main_v1
  let main_c : IVec S_ 1 := constantI S_ 1 1#1
  let main_v3 : IVec S_ 1 := (fun x v => Host.reduce IntOp.andi x v reducesTo_S28x16384_S_d0_1 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg4 main_v13 main_v16
-- ==== Kernel.lean ====
abbrev S28x16384 : Shape := ⟨2, ![28, 16384]⟩
abbrev S4x128 : Shape := ⟨2, ![4, 128]⟩
abbrev S128 : Shape := ⟨1, ![128]⟩
abbrev S5x128 : Shape := ⟨2, ![5, 128]⟩
abbrev S16384x7x256 : Shape := ⟨3, ![16384, 7, 256]⟩
abbrev S28x1024 : Shape := ⟨2, ![28, 1024]⟩
abbrev S1024x7x256 : Shape := ⟨3, ![1024, 7, 256]⟩
abbrev S1024x28 : Shape := ⟨2, ![1024, 28]⟩
abbrev S1024x4 : Shape := ⟨2, ![1024, 4]⟩
abbrev S1024x128 : Shape := ⟨2, ![1024, 128]⟩
abbrev S1x128 : Shape := ⟨2, ![1, 128]⟩
abbrev S1024x1 : Shape := ⟨2, ![1024, 1]⟩
abbrev S1024x5 : Shape := ⟨2, ![1024, 5]⟩
abbrev S1024x256 : Shape := ⟨2, ![1024, 256]⟩
abbrev S1024x1x256 : Shape := ⟨3, ![1024, 1, 256]⟩

abbrev nBuf : Space → Nat
  | .hbm => 6
  | .vmem => 8
  | .smem => 0
  | _ => 0

abbrev bufTy : (tb : Table) → Fin (tcTables nBuf tb) → BufTy
  | .hbm, ⟨0, _⟩ => ⟨S28x16384, .f32⟩
  | .hbm, ⟨1, _⟩ => ⟨S4x128, .f32⟩
  | .hbm, ⟨2, _⟩ => ⟨S128, .f32⟩
  | .hbm, ⟨3, _⟩ => ⟨S5x128, .f32⟩
  | .hbm, ⟨4, _⟩ => ⟨S128, .f32⟩
  | .hbm, ⟨5, _⟩ => ⟨S16384x7x256, .f32⟩
  | .local _ .vmem, ⟨0, _⟩ => ⟨S28x1024, .f32⟩
  | .local _ .vmem, ⟨1, _⟩ => ⟨S28x1024, .f32⟩
  | .local _ .vmem, ⟨2, _⟩ => ⟨S4x128, .f32⟩
  | .local _ .vmem, ⟨3, _⟩ => ⟨S128, .f32⟩
  | .local _ .vmem, ⟨4, _⟩ => ⟨S5x128, .f32⟩
  | .local _ .vmem, ⟨5, _⟩ => ⟨S128, .f32⟩
  | .local _ .vmem, ⟨6, _⟩ => ⟨S1024x7x256, .f32⟩
  | .local _ .vmem, ⟨7, _⟩ => ⟨S1024x7x256, .f32⟩
  | _, _ => ⟨S28x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S28x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x7x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S28x1024_S28x1024_0_0 : ∀ a, (![0, 0] : Fin 2 → Nat) a + S28x1024.size a ≤ S28x1024.size a
  h_S28x1024 : 0 < S28x1024.numel
  transposes_S28x1024_p1_0_S1024x28 : S28x1024.Transposes [1, 0] S1024x28
  inb_S4x128_S4x128_0_0 : ∀ a, (![0, 0] : Fin 2 → Nat) a + S4x128.size a ≤ S4x128.size a
  h_S4x128 : 0 < S4x128.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S128_S128_0 : ∀ a, (![0] : Fin 1 → Nat) a + S128.size a ≤ S128.size a
  h_S128 : 0 < S128.numel
  slices_S1024x28_o0_0_S1024x4 : S1024x28.Slices ![0, 0] S1024x4
  shapeCasts_S128_S1x128 : S128.ShapeCasts S1x128
  broadcasts_S1x128_S1024x128 : S1x128.Broadcasts S1024x128
  slices_S1024x28_o0_4_S1024x4 : S1024x28.Slices ![0, 4] S1024x4
  slices_S1024x4_o0_0_S1024x1 : S1024x4.Slices ![0, 0] S1024x1
  slices_S1024x4_o0_1_S1024x1 : S1024x4.Slices ![0, 1] S1024x1
  concatenates_S1024x4_S1024x1_S1024x5_d1 : Shape.Concatenates [S1024x4, S1024x1] S1024x5 1
  slices_S1024x28_o0_8_S1024x4 : S1024x28.Slices ![0, 8] S1024x4
  slices_S1024x28_o0_12_S1024x4 : S1024x28.Slices ![0, 12] S1024x4
  slices_S1024x28_o0_16_S1024x4 : S1024x28.Slices ![0, 16] S1024x4
  slices_S1024x28_o0_20_S1024x4 : S1024x28.Slices ![0, 20] S1024x4
  slices_S1024x28_o0_24_S1024x4 : S1024x28.Slices ![0, 24] S1024x4
  concatenates_S1024x128_S1024x128_S1024x256_d1 : Shape.Concatenates [S1024x128, S1024x128] S1024x256 1
  inb_S1024x7x256_S1024x1x256_0_0_0 : ∀ a, (![0, 0, 0] : Fin 3 → Nat) a + S1024x1x256.size a ≤ S1024x7x256.size a
  h_S1024x1x256 : 0 < S1024x1x256.numel
  shapeCasts_S1024x1x256_S1024x256 : S1024x1x256.ShapeCasts S1024x256
  shapeCasts_S1024x256_S1024x1x256 : S1024x256.ShapeCasts S1024x1x256
  inb_S1024x7x256_S1024x1x256_0_1_0 : ∀ a, (![0, 1, 0] : Fin 3 → Nat) a + S1024x1x256.size a ≤ S1024x7x256.size a
  inb_S1024x7x256_S1024x1x256_0_2_0 : ∀ a, (![0, 2, 0] : Fin 3 → Nat) a + S1024x1x256.size a ≤ S1024x7x256.size a
  inb_S1024x7x256_S1024x1x256_0_3_0 : ∀ a, (![0, 3, 0] : Fin 3 → Nat) a + S1024x1x256.size a ≤ S1024x7x256.size a
  inb_S1024x7x256_S1024x1x256_0_4_0 : ∀ a, (![0, 4, 0] : Fin 3 → Nat) a + S1024x1x256.size a ≤ S1024x7x256.size a
  inb_S1024x7x256_S1024x1x256_0_5_0 : ∀ a, (![0, 5, 0] : Fin 3 → Nat) a + S1024x1x256.size a ≤ S1024x7x256.size a
  inb_S1024x7x256_S1024x1x256_0_6_0 : ∀ a, (![0, 6, 0] : Fin 3 → Nat) a + S1024x1x256.size a ≤ S1024x7x256.size a
  dot_S1024x4_S4x128_S1024x128_1_0_0_1_n_n_wf : DotDims.WF S1024x4 S4x128 S1024x128 [1] [0] [0] [1] [] []
  dot_S1024x5_S5x128_S1024x128_1_0_0_1_n_n_wf : DotDims.WF S1024x5 S5x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x1024.size a ≤ S28x16384.size a
  hwx0_0 : ∀ i : grid0.Coords, EltTy.bits .f32 = 32 ∨ (Rect.block (s := S28x16384) S28x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x7x256.size a ≤ S16384x7x256.size a
  hwx0_5 : ∀ i : grid0.Coords, EltTy.bits .f32 = 32 ∨ (Rect.block (s := S16384x7x256) S1024x7x256.size (cc0_transform_5 i) (hinb0_5 i)).WholeWords (EltTy.packing .f32)

variable [Facts₀]

def dot_S1024x4_S4x128_S1024x128_1_0_0_1_n_n : DotDims S1024x4 S4x128 S1024x128 where
  lhsContracting := [1]
  rhsContracting := [0]
  lhsNonContracting := [0]
  rhsNonContracting := [1]
  lhsBatch := []
  rhsBatch := []
  wf := dot_S1024x4_S4x128_S1024x128_1_0_0_1_n_n_wf
def dot_S1024x5_S5x128_S1024x128_1_0_0_1_n_n : DotDims S1024x5 S5x128 S1024x128 where
  lhsContracting := [1]
  rhsContracting := [0]
  lhsNonContracting := [0]
  rhsNonContracting := [1]
  lhsBatch := []
  rhsBatch := []
  wf := dot_S1024x5_S5x128_S1024x128_1_0_0_1_n_n_wf

abbrev win0_0 : Pipeline.Window sig grid0 :=
  Pipeline.Window.ofSpec (Memref.whole main_arg0) S28x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x7x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S28x16384 : Shape := ⟨2, ![28, 16384]⟩
abbrev S4x128 : Shape := ⟨2, ![4, 128]⟩
abbrev S128 : Shape := ⟨1, ![128]⟩
abbrev S5x128 : Shape := ⟨2, ![5, 128]⟩
abbrev S16384x28 : Shape := ⟨2, ![16384, 28]⟩
abbrev S16384x7x4 : Shape := ⟨3, ![16384, 7, 4]⟩
abbrev S16384x7x128 : Shape := ⟨3, ![16384, 7, 128]⟩
abbrev S1x1x128 : Shape := ⟨3, ![1, 1, 128]⟩
abbrev S_ : Shape := ⟨0, ![]⟩
abbrev S16384x7x1x4 : Shape := ⟨4, ![16384, 7, 1, 4]⟩
abbrev S16384x1x7x4 : Shape := ⟨4, ![16384, 1, 7, 4]⟩
abbrev S16384x7x7x4 : Shape := ⟨4, ![16384, 7, 7, 4]⟩
abbrev S16384x7x7x1 : Shape := ⟨4, ![16384, 7, 7, 1]⟩
abbrev S16384x7x7 : Shape := ⟨3, ![16384, 7, 7]⟩
abbrev S16384x7x7x5 : Shape := ⟨4, ![16384, 7, 7, 5]⟩
abbrev S16384x7x7x128 : Shape := ⟨4, ![16384, 7, 7, 128]⟩
abbrev S1x1x1x128 : Shape := ⟨4, ![1, 1, 1, 128]⟩
abbrev S7x7 : Shape := ⟨2, ![7, 7]⟩
abbrev S1x7x7x1 : Shape := ⟨4, ![1, 7, 7, 1]⟩
abbrev S16384x7x256 : Shape := ⟨3, ![16384, 7, 256]⟩

abbrev nBuf : Space → Nat
  | .hbm => 52
  | .vmem => 0
  | .smem => 0
  | _ => 0

abbrev bufTy : (tb : Table) → Fin (tcTables nBuf tb) → BufTy
  | .hbm, ⟨0, _⟩ => ⟨S28x16384, .f32⟩
  | .hbm, ⟨1, _⟩ => ⟨S4x128, .f32⟩
  | .hbm, ⟨2, _⟩ => ⟨S128, .f32⟩
  | .hbm, ⟨3, _⟩ => ⟨S5x128, .f32⟩
  | .hbm, ⟨4, _⟩ => ⟨S128, .f32⟩
  | .hbm, ⟨5, _⟩ => ⟨S16384x28, .f32⟩
  | .hbm, ⟨6, _⟩ => ⟨S16384x7x4, .f32⟩
  | .hbm, ⟨7, _⟩ => ⟨S16384x7x128, .f32⟩
  | .hbm, ⟨8, _⟩ => ⟨S1x1x128, .f32⟩
  | .hbm, ⟨9, _⟩ => ⟨S16384x7x128, .f32⟩
  | .hbm, ⟨10, _⟩ => ⟨S16384x7x128, .f32⟩
  | .hbm, ⟨11, _⟩ => ⟨S_, .f32⟩
  | .hbm, ⟨12, _⟩ => ⟨S16384x7x128, .f32⟩
  | .hbm, ⟨13, _⟩ => ⟨S16384x7x128, .f32⟩
  | .hbm, ⟨14, _⟩ => ⟨S16384x7x1x4, .f32⟩
  | .hbm, ⟨15, _⟩ => ⟨S16384x1x7x4, .f32⟩
  | .hbm, ⟨16, _⟩ => ⟨S16384x7x7x4, .f32⟩
  | .hbm, ⟨17, _⟩ => ⟨S16384x7x7x4, .f32⟩
  | .hbm, ⟨18, _⟩ => ⟨S16384x7x7x4, .f32⟩
  | .hbm, ⟨19, _⟩ => ⟨S16384x7x7x1, .f32⟩
  | .hbm, ⟨20, _⟩ => ⟨S16384x7x7, .f32⟩
  | .hbm, ⟨21, _⟩ => ⟨S16384x7x7, .f32⟩
  | .hbm, ⟨22, _⟩ => ⟨S16384x7x7x1, .f32⟩
  | .hbm, ⟨23, _⟩ => ⟨S16384x7x7, .f32⟩
  | .hbm, ⟨24, _⟩ => ⟨S16384x7x7, .f32⟩
  | .hbm, ⟨25, _⟩ => ⟨S16384x7x7, .f32⟩
  | .hbm, ⟨26, _⟩ => ⟨S16384x7x7, .f32⟩
  | .hbm, ⟨27, _⟩ => ⟨S16384x7x7x1, .f32⟩
  | .hbm, ⟨28, _⟩ => ⟨S16384x7x7x5, .f32⟩
  | .hbm, ⟨29, _⟩ => ⟨S16384x7x7x128, .f32⟩
  | .hbm, ⟨30, _⟩ => ⟨S1x1x1x128, .f32⟩
  | .hbm, ⟨31, _⟩ => ⟨S16384x7x7x128, .f32⟩
  | .hbm, ⟨32, _⟩ => ⟨S16384x7x7x128, .f32⟩
  | .hbm, ⟨33, _⟩ => ⟨S_, .f32⟩
  | .hbm, ⟨34, _⟩ => ⟨S16384x7x7x128, .f32⟩
  | .hbm, ⟨35, _⟩ => ⟨S16384x7x7x128, .f32⟩
  | .hbm, ⟨36, _⟩ => ⟨S7x7, .i32⟩
  | .hbm, ⟨37, _⟩ => ⟨S7x7, .i32⟩
  | .hbm, ⟨38, _⟩ => ⟨S_, .i32⟩
  | .hbm, ⟨39, _⟩ => ⟨S7x7, .i32⟩
  | .hbm, ⟨40, _⟩ => ⟨S7x7, .i32⟩
  | .hbm, ⟨41, _⟩ => ⟨S7x7, .i1⟩
  | .hbm, ⟨42, _⟩ => ⟨S7x7, .f32⟩
  | .hbm, ⟨43, _⟩ => ⟨S_, .f32⟩
  | .hbm, ⟨44, _⟩ => ⟨S7x7, .f32⟩
  | .hbm, ⟨45, _⟩ => ⟨S7x7, .f32⟩
  | .hbm, ⟨46, _⟩ => ⟨S1x7x7x1, .f32⟩
  | .hbm, ⟨47, _⟩ => ⟨S16384x7x7x128, .f32⟩
  | .hbm, ⟨48, _⟩ => ⟨S16384x7x7x128, .f32⟩
  | .hbm, ⟨49, _⟩ => ⟨S_, .f32⟩
  | .hbm, ⟨50, _⟩ => ⟨S16384x7x128, .f32⟩
  | .hbm, ⟨51, _⟩ => ⟨S16384x7x256, .f32⟩
  | _, _ => ⟨S28x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call1_cst : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_0 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  transposes_S28x16384_S16384x28_1_0 : S28x16384.Transposes [1, 0] S16384x28
  shapeCasts_S16384x28_S16384x7x4 : S16384x28.ShapeCasts S16384x7x4
  bcast_S128_S1x1x128_2 : S128.BroadcastsInDim S1x1x128 (![2] : Fin 1 → Fin S1x1x128.rank)
  bcast_S1x1x128_S16384x7x128_0_1_2 : S1x1x128.BroadcastsInDim S16384x7x128 (![0, 1, 2] : Fin 3 → Fin S16384x7x128.rank)
  bcast_S_S16384x7x128 : S_.BroadcastsInDim S16384x7x128 (![] : Fin 0 → Fin S16384x7x128.rank)
  bcast_S16384x7x4_S16384x7x1x4_0_1_3 : S16384x7x4.BroadcastsInDim S16384x7x1x4 (![0, 1, 3] : Fin 3 → Fin S16384x7x1x4.rank)
  bcast_S16384x7x4_S16384x1x7x4_0_2_3 : S16384x7x4.BroadcastsInDim S16384x1x7x4 (![0, 2, 3] : Fin 3 → Fin S16384x1x7x4.rank)
  bcast_S16384x7x1x4_S16384x7x7x4_0_1_2_3 : S16384x7x1x4.BroadcastsInDim S16384x7x7x4 (![0, 1, 2, 3] : Fin 4 → Fin S16384x7x7x4.rank)
  bcast_S16384x1x7x4_S16384x7x7x4_0_1_2_3 : S16384x1x7x4.BroadcastsInDim S16384x7x7x4 (![0, 1, 2, 3] : Fin 4 → Fin S16384x7x7x4.rank)
  slices_S16384x7x7x4_S16384x7x7x1_0_0_0_0 : S16384x7x7x4.Slices ![0, 0, 0, 0] S16384x7x7x1
  shapeCasts_S16384x7x7x1_S16384x7x7 : S16384x7x7x1.ShapeCasts S16384x7x7
  slices_S16384x7x7x4_S16384x7x7x1_0_0_0_1 : S16384x7x7x4.Slices ![0, 0, 0, 1] S16384x7x7x1
  bcast_S16384x7x7_S16384x7x7x1_0_1_2 : S16384x7x7.BroadcastsInDim S16384x7x7x1 (![0, 1, 2] : Fin 3 → Fin S16384x7x7x1.rank)
  concatenates_S16384x7x7x4_S16384x7x7x1_S16384x7x7x5_d3 : Shape.Concatenates [S16384x7x7x4, S16384x7x7x1] S16384x7x7x5 3
  bcast_S128_S1x1x1x128_3 : S128.BroadcastsInDim S1x1x1x128 (![3] : Fin 1 → Fin S1x1x1x128.rank)
  bcast_S1x1x1x128_S16384x7x7x128_0_1_2_3 : S1x1x1x128.BroadcastsInDim S16384x7x7x128 (![0, 1, 2, 3] : Fin 4 → Fin S16384x7x7x128.rank)
  bcast_S_S16384x7x7x128 : S_.BroadcastsInDim S16384x7x7x128 (![] : Fin 0 → Fin S16384x7x7x128.rank)
  bcast_S_S7x7 : S_.BroadcastsInDim S7x7 (![] : Fin 0 → Fin S7x7.rank)
  bcast_S7x7_S1x7x7x1_1_2 : S7x7.BroadcastsInDim S1x7x7x1 (![1, 2] : Fin 2 → Fin S1x7x7x1.rank)
  bcast_S1x7x7x1_S16384x7x7x128_0_1_2_3 : S1x7x7x1.BroadcastsInDim S16384x7x7x128 (![0, 1, 2, 3] : Fin 4 → Fin S16384x7x7x128.rank)
  reducesTo_S16384x7x7x128_S16384x7x128_d2 : S16384x7x7x128.ReducesTo [2] S16384x7x128
  h_S_ : 0 < S_.numel
  concatenates_S16384x7x128_S16384x7x128_S16384x7x256_d2 : Shape.Concatenates [S16384x7x128, S16384x7x128] S16384x7x256 2
  dot_S16384x7x4_S4x128_S16384x7x128_2_0_01_1_n_n_wf : DotDims.WF S16384x7x4 S4x128 S16384x7x128 [2] [0] [0, 1] [1] [] []
  dot_S16384x7x7x5_S5x128_S16384x7x7x128_3_0_012_1_n_n_wf : DotDims.WF S16384x7x7x5 S5x128 S16384x7x7x128 [3] [0] [0, 1, 2] [1] [] []

variable [Facts₀]

def dot_S16384x7x4_S4x128_S16384x7x128_2_0_01_1_n_n : DotDims S16384x7x4 S4x128 S16384x7x128 where
  lhsContracting := [2]
  rhsContracting := [0]
  lhsNonContracting := [0, 1]
  rhsNonContracting := [1]
  lhsBatch := []
  rhsBatch := []
  wf := dot_S16384x7x4_S4x128_S16384x7x128_2_0_01_1_n_n_wf
def dot_S16384x7x7x5_S5x128_S16384x7x7x128_3_0_012_1_n_n : DotDims S16384x7x7x5 S5x128 S16384x7x7x128 where
  lhsContracting := [3]
  rhsContracting := [0]
  lhsNonContracting := [0, 1, 2]
  rhsNonContracting := [1]
  lhsBatch := []
  rhsBatch := []
  wf := dot_S16384x7x7x5_S5x128_S16384x7x7x128_3_0_012_1_n_n_wf

class Facts : Prop extends Facts₀ where

variable [Facts]
-- ==== Proof.Spec.lean ====
/-
  The function both programs compute.

  The input table is feature-major: column b of the 28 x B table holds seven entities of four coordinates each,
  coordinate d of entity i in row 4 i + d. For batch element b, entity i and output lane h < 256 the result is

    h < 128 :  max (Σ_{d<4} e_i(d) · Wp(d, h) + bp(h)) 0                                   (the property embedding)
    h ≥ 128 :  Σ_{j ≠ i} max (Σ_{d<5} φ_ij(d) · Wr(d, h - 128) + br(h - 128)) 0            (the relation embedding)

  where φ_ij = (e_i - e_j, sqrt ((e_i(0) - e_j(0))² + (e_i(1) - e_j(1))²)) is the difference of two entities with the
  planar distance appended. One side sums the six terms j ≠ i one after the other starting from zero; the other sums
  all seven terms, the term j = i multiplied by 0 and the others by 1. On the extended reals x · 0 = 0 for every x
  (also for the infinities), so the two sums agree with no assumption on the inputs.
-/
import Idealize.ShloMosaic.PureOps.Ideal.Laws
import Idealize.ShloMosaic.Lib.ValueIdx

noncomputable section

namespace Cert.Encoder

open Idealize.ShloMosaic Idealize.ShloMosaic.ValueIdx

/-- Coordinate d of entity i sits in row 4 i + d of the feature-major table. -/
def entRow (i : Fin 7) (d : Fin 4) : Fin 28 := ⟨4 * i.val + d.val, by have := i.isLt; have := d.isLt; omega⟩

/-- The relation feature of the ordered pair (i, j): the four coordinate differences, then the planar distance. -/
def feat (e : Fin 7 → Fin 4 → EReal) (i j : Fin 7) (d : Fin 5) : EReal :=
  if hd : d.val < 4 then e i ⟨d.val, hd⟩ - e j ⟨d.val, hd⟩
  else Ideal.sqrt ((e i 0 - e j 0) * (e i 0 - e j 0) + (e i 1 - e j 1) * (e i 1 - e j 1))

/-- The property embedding of entity i at lane h. -/
def prop (e : Fin 7 → Fin 4 → EReal) (wp : Fin 4 → Fin 128 → EReal) (bp : Fin 128 → EReal) (i : Fin 7) (h : Fin 128) : EReal :=
  max (∑ d : Fin 4, e i d * wp d h + bp h) 0

/-- The relation embedding of the ordered pair (i, j) at lane h. -/
def rel (e : Fin 7 → Fin 4 → EReal) (wr : Fin 5 → Fin 128 → EReal) (br : Fin 128 → EReal) (i j : Fin 7) (h : Fin 128) : EReal :=
  max (∑ d : Fin 5, feat e i j d * wr d h + br h) 0

/-- The relation embeddings of entity i summed over all seven partners, the partner i itself weighted 0. -/
def relSum (e : Fin 7 → Fin 4 → EReal) (wr : Fin 5 → Fin 128 → EReal) (br : Fin 128 → EReal) (i : Fin 7) (h : Fin 128) : EReal :=
  ∑ j : Fin 7, rel e wr br i j h * (if i = j then (0 : EReal) else 1)

/-- One output row: lanes 0..127 the property embedding, lanes 128..255 the summed relation embedding. -/
def row (e : Fin 7 → Fin 4 → EReal) (wp : Fin 4 → Fin 128 → EReal) (bp : Fin 128 → EReal) (wr : Fin 5 → Fin 128 → EReal)
    (br : Fin 128 → EReal) (i : Fin 7) (h : Fin 256) : EReal :=
  if hh : h.val < 128 then prop e wp bp i ⟨h.val, hh⟩
  else relSum e wr br i ⟨h.val - 128, by have := h.isLt; omega⟩

/-- The result for a table of B batch elements, at batch element b, entity i, lane h. -/
def at3 (B : Nat) (ctx : (⟨2, ![28, B]⟩ : Shape).Idx → EReal) (wp : (⟨2, ![4, 128]⟩ : Shape).Idx → EReal)
    (bp : (⟨1, ![128]⟩ : Shape).Idx → EReal) (wr : (⟨2, ![5, 128]⟩ : Shape).Idx → EReal) (br : (⟨1, ![128]⟩ : Shape).Idx → EReal)
    (b : Fin B) (i : Fin 7) (h : Fin 256) : EReal :=
  row (fun i d => ctx (ix2 (entRow i d) b)) (fun d h => wp (ix2 d h)) (fun h => bp (ix1 h)) (fun d h => wr (ix2 d h))
    (fun h => br (ix1 h)) i h

/-- The result array for a table of B batch elements. -/
def arr (B : Nat) (ctx : (⟨2, ![28, B]⟩ : Shape).Idx → EReal) (wp : (⟨2, ![4, 128]⟩ : Shape).Idx → EReal)
    (bp : (⟨1, ![128]⟩ : Shape).Idx → EReal) (wr : (⟨2, ![5, 128]⟩ : Shape).Idx → EReal) (br : (⟨1, ![128]⟩ : Shape).Idx → EReal) :
    (⟨3, ![B, 7, 256]⟩ : Shape).Idx → EReal :=
  fun y => at3 B ctx wp bp wr br (y 0) (y 1) (y 2)

theorem arr_ix3 (B : Nat) (ctx : (⟨2, ![28, B]⟩ : Shape).Idx → EReal) (wp : (⟨2, ![4, 128]⟩ : Shape).Idx → EReal)
    (bp : (⟨1, ![128]⟩ : Shape).Idx → EReal) (wr : (⟨2, ![5, 128]⟩ : Shape).Idx → EReal) (br : (⟨1, ![128]⟩ : Shape).Idx → EReal)
    (b : Fin B) (i : Fin 7) (h : Fin 256) : arr B ctx wp bp wr br (ix3 b i h) = at3 B ctx wp bp wr br b i h := rfl

/-! ## The weighted sum over all partners is the running sum over the six others -/

section Sums

variable (f : Fin 7 → EReal)

theorem wsum_0 : ∑ j : Fin 7, f j * (if (0 : Fin 7) = j then (0 : EReal) else 1) = 0 + f 1 + f 2 + f 3 + f 4 + f 5 + f 6 := by
  simp [Fin.sum_univ_succ, add_assoc]
theorem wsum_1 : ∑ j : Fin 7, f j * (if (1 : Fin 7) = j then (0 : EReal) else 1) = 0 + f 0 + f 2 + f 3 + f 4 + f 5 + f 6 := by
  simp [Fin.sum_univ_succ, add_assoc]
theorem wsum_2 : ∑ j : Fin 7, f j * (if (2 : Fin 7) = j then (0 : EReal) else 1) = 0 + f 0 + f 1 + f 3 + f 4 + f 5 + f 6 := by
  simp [Fin.sum_univ_succ, add_assoc]
theorem wsum_3 : ∑ j : Fin 7, f j * (if (3 : Fin 7) = j then (0 : EReal) else 1) = 0 + f 0 + f 1 + f 2 + f 4 + f 5 + f 6 := by
  simp [Fin.sum_univ_succ, add_assoc]
theorem wsum_4 : ∑ j : Fin 7, f j * (if (4 : Fin 7) = j then (0 : EReal) else 1) = 0 + f 0 + f 1 + f 2 + f 3 + f 5 + f 6 := by
  simp [Fin.sum_univ_succ, add_assoc]
theorem wsum_5 : ∑ j : Fin 7, f j * (if (5 : Fin 7) = j then (0 : EReal) else 1) = 0 + f 0 + f 1 + f 2 + f 3 + f 4 + f 6 := by
  simp [Fin.sum_univ_succ, add_assoc]
theorem wsum_6 : ∑ j : Fin 7, f j * (if (6 : Fin 7) = j then (0 : EReal) else 1) = 0 + f 0 + f 1 + f 2 + f 3 + f 4 + f 5 := by
  simp [Fin.sum_univ_succ, add_assoc]

end Sums

/-! ## The two float constants of the programs -/

/-- The word of +0.0 denotes 0. -/
theorem zero_word : Ideal.ofBits .f32 0x00000000#32 = 0 := Ideal.ofBits_zero_f32

/-- The word of 1.0 denotes 1. -/
theorem one_word : Ideal.ofBits .f32 0x3F800000#32 = 1 := by
  simp [Ideal.ofBits, Ideal.ieee, -EReal.coe_mul]; norm_num

end Cert.Encoder

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KernelBlock.lean ====
/-
  What one grid point of the kernel leaves in its output block: the seven rows of the block, written one entity at a
  time, are together the encoder's result for the 1024 batch elements of the point's input block.

  The body transposes the 28 x 1024 input block so that a batch element is a row, cuts the seven entities out of each
  row, and for entity i writes the 1024 x 256 slab [ relu (x_i W_p + b_p) | Σ_{j ≠ i} relu (φ_ij W_r + b_r) ] into
  row i of the 1024 x 7 x 256 block. The narrowings to the shorter float format are the identity on the extended
  reals, and a matrix product into the zero array is the plain sum over the shared axis.
-/
import proofs.«150759_j28845000360164_1_alg».proof.Proof.Gen.KernelIdeal.Frame
import proofs.«150759_j28845000360164_1_alg».proof.Proof.Spec
import proofs.«150759_j28845000360164_1_alg».proof.Proof.LibPlainDot
import Idealize.ShloMosaic.Lib.Pipeline.Value
import Idealize.ShloMosaic.Lib.ValueIdx
import Idealize.ShloMosaic.Lib.ValueLayout

noncomputable section

namespace Cert.KernelIdeal.Enc

open Cert.KernelIdeal Cert.KernelIdeal.Gen Idealize.ShloMosaic Idealize.ShloMosaic.TcCoe Idealize.SL.Sem
open Idealize.ShloMosaic.ValueIdx

/-! ## The body's building blocks, at any float instance -/

section Blocks

variable {F : FTy → Type} [FloatOps F]

/-- The input block with a batch element per row. -/
def rowsOf (x0 : Vec F S28x1024 .f32) : FVec F S1024x28 .f32 :=
  transpose S1024x28 [1, 0] x0 transposes_S28x1024_p1_0_S1024x28

/-- Entity i of every row: columns 4 i .. 4 i + 3. -/
def ent (x0 : Vec F S28x1024 .f32) : Fin 7 → FVec F S1024x4 .f32
  | 0 => extractStridedSlice S1024x4 ![0, 0] (rowsOf x0) slices_S1024x28_o0_0_S1024x4
  | 1 => extractStridedSlice S1024x4 ![0, 4] (rowsOf x0) slices_S1024x28_o0_4_S1024x4
  | 2 => extractStridedSlice S1024x4 ![0, 8] (rowsOf x0) slices_S1024x28_o0_8_S1024x4
  | 3 => extractStridedSlice S1024x4 ![0, 12] (rowsOf x0) slices_S1024x28_o0_12_S1024x4
  | 4 => extractStridedSlice S1024x4 ![0, 16] (rowsOf x0) slices_S1024x28_o0_16_S1024x4
  | 5 => extractStridedSlice S1024x4 ![0, 20] (rowsOf x0) slices_S1024x28_o0_20_S1024x4
  | 6 => extractStridedSlice S1024x4 ![0, 24] (rowsOf x0) slices_S1024x28_o0_24_S1024x4

/-- A bias vector repeated down the 1024 rows. -/
def biasRows (b : Vec F S128 .f32) : FVec F S1024x128 .f32 :=
  broadcastTo S1024x128 (shapeCast S1x128 b shapeCasts_S128_S1x128) broadcasts_S1x128_S1024x128

/-- relu (x W + b) for a four-column x. -/
def propBlock (xi : FVec F S1024x4 .f32) (w : FVec F S4x128 .bf16) (b : Vec F S128 .f32) : FVec F S1024x128 .f32 :=
  maximumf (addf (matmul dot_S1024x4_S4x128_S1024x128_1_0_0_1_n_n none (truncf .bf16 xi bitsLt_bf16_f32) w
    (constant S1024x128 .f32 0x00000000#32)) (biasRows b)) (broadcast S1024x128 (Scalar.ofBits .f32 0x00000000#32))

/-- The five relation features of a pair of entities: the differences, then the planar distance. -/
def featBlock (xi xj : FVec F S1024x4 .f32) : FVec F S1024x5 .f32 :=
  concatenate S1024x5 1 [⟨S1024x4, subf xi xj⟩, ⟨S1024x1, sqrt (addf
    (mulf (extractStridedSlice S1024x1 ![0, 0] (subf xi xj) slices_S1024x4_o0_0_S1024x1)
      (extractStridedSlice S1024x1 ![0, 0] (subf xi xj) slices_S1024x4_o0_0_S1024x1))
    (mulf (extractStridedSlice S1024x1 ![0, 1] (subf xi xj) slices_S1024x4_o0_1_S1024x1)
      (extractStridedSlice S1024x1 ![0, 1] (subf xi xj) slices_S1024x4_o0_1_S1024x1)))⟩]
    concatenates_S1024x4_S1024x1_S1024x5_d1

/-- relu (φ W + b) for the features φ of a pair. -/
def relBlock (xi xj : FVec F S1024x4 .f32) (w : FVec F S5x128 .bf16) (b : Vec F S128 .f32) : FVec F S1024x128 .f32 :=
  maximumf (addf (matmul dot_S1024x5_S5x128_S1024x128_1_0_0_1_n_n none (truncf .bf16 (featBlock xi xj) bitsLt_bf16_f32) w
    (constant S1024x128 .f32 0x00000000#32)) (biasRows b)) (broadcast S1024x128 (Scalar.ofBits .f32 0x00000000#32))

/-- Six terms added one after the other onto zero. -/
def acc6 (r0 r1 r2 r3 r4 r5 : FVec F S1024x128 .f32) : FVec F S1024x128 .f32 :=
  addf (addf (addf (addf (addf (addf (broadcast S1024x128 (Scalar.ofBits .f32 0x00000000#32)) r0) r1) r2) r3) r4) r5

/-- Two 128-lane halves side by side, as one row of the output block. -/
def rowBlock (p r : FVec F S1024x128 .f32) : FVec F S1024x1x256 .f32 :=
  shapeCast S1024x1x256 (concatenate S1024x256 1 [⟨S1024x128, p⟩, ⟨S1024x128, r⟩] concatenates_S1024x128_S1024x128_S1024x256_d1)
    shapeCasts_S1024x256_S1024x1x256

/-- What the body stores for entity i, its partners j0 .. j5 taken in this order. -/
def piece (x0 : Vec F S28x1024 .f32) (x1 : Vec F S4x128 .f32) (x2 : Vec F S128 .f32) (x3 : Vec F S5x128 .f32) (x4 : Vec F S128 .f32)
    (i j0 j1 j2 j3 j4 j5 : Fin 7) : FVec F S1024x1x256 .f32 :=
  rowBlock (propBlock (ent x0 i) (truncf .bf16 x1 bitsLt_bf16_f32) x2)
    (acc6 (relBlock (ent x0 i) (ent x0 j0) (truncf .bf16 x3 bitsLt_bf16_f32) x4)
      (relBlock (ent x0 i) (ent x0 j1) (truncf .bf16 x3 bitsLt_bf16_f32) x4)
      (relBlock (ent x0 i) (ent x0 j2) (truncf .bf16 x3 bitsLt_bf16_f32) x4)
      (relBlock (ent x0 i) (ent x0 j3) (truncf .bf16 x3 bitsLt_bf16_f32) x4)
      (relBlock (ent x0 i) (ent x0 j4) (truncf .bf16 x3 bitsLt_bf16_f32) x4)
      (relBlock (ent x0 i) (ent x0 j5) (truncf .bf16 x3 bitsLt_bf16_f32) x4))

theorem zero2 : (![0, 0] : Fin 2 → Nat) = fun _ => 0 := funext fun a => by fin_cases a <;> rfl
theorem zero1 : (![0] : Fin 1 → Nat) = fun _ => 0 := funext fun a => by fin_cases a <;> rfl

/-- The body's seven stores, each the slab of one entity. -/
theorem out_pieces (x0 : Vec F S28x1024 .f32) (x1 : Vec F S4x128 .f32) (x2 : Vec F S128 .f32) (x3 : Vec F S5x128 .f32) (x4 : Vec F S128 .f32) :
    out0_5 x0 x1 x2 x3 x4 = View.canon [⟨r0_10, piece x0 x1 x2 x3 x4 6 0 1 2 3 4 5⟩, ⟨r0_9, piece x0 x1 x2 x3 x4 5 0 1 2 3 4 6⟩,
      ⟨r0_8, piece x0 x1 x2 x3 x4 4 0 1 2 3 5 6⟩, ⟨r0_7, piece x0 x1 x2 x3 x4 3 0 1 2 4 5 6⟩, ⟨r0_6, piece x0 x1 x2 x3 x4 2 0 1 3 4 5 6⟩,
      ⟨r0_5, piece x0 x1 x2 x3 x4 1 0 2 3 4 5 6⟩, ⟨r0_4, piece x0 x1 x2 x3 x4 0 1 2 3 4 5 6⟩] := by
  unfold out0_5
  simp only [View.ld_unit_zero (S := S28x1024) zero2, View.ld_unit_zero (S := S4x128) zero2, View.ld_unit_zero (S := S5x128) zero2,
    View.ld_unit_zero (S := S128) zero1]
  rfl

end Blocks

/-! ## The blocks read at an entry, on the extended reals -/

section AtIdeal

open Cert.Encoder (entRow)

/-- Row r of the transposed block is column r of the block. -/
theorem rowsOf_apply (x0 : Vec Ideal S28x1024 .f32) (r : Fin 1024) (k : Fin 28) : rowsOf x0 (ix2 r k) = x0 (ix2 k r) :=
  transpose_ix2_apply x0 transposes_S28x1024_p1_0_S1024x28 r k

/-- Coordinate d of entity i of batch element r is the block's entry (4 i + d, r). -/
theorem ent_apply (x0 : Vec Ideal S28x1024 .f32) (i : Fin 7) (r : Fin 1024) (d : Fin 4) :
    ent x0 i (ix2 r d) = x0 (ix2 (entRow i d) r) := by
  have key : ∀ (o : Nat) (h : S1024x28.Slices ![0, o] S1024x4), o = 4 * i.val →
      extractStridedSlice S1024x4 ![0, o] (rowsOf x0) h (ix2 r d) = x0 (ix2 (entRow i d) r) := fun o h ho =>
    (slice2_axis1_apply o (rowsOf x0) h r d (entRow i d) (by subst ho; rfl)).trans (rowsOf_apply x0 r _)
  match i with
  | 0 => exact key 0 slices_S1024x28_o0_0_S1024x4 rfl
  | 1 => exact key 4 slices_S1024x28_o0_4_S1024x4 rfl
  | 2 => exact key 8 slices_S1024x28_o0_8_S1024x4 rfl
  | 3 => exact key 12 slices_S1024x28_o0_12_S1024x4 rfl
  | 4 => exact key 16 slices_S1024x28_o0_16_S1024x4 rfl
  | 5 => exact key 20 slices_S1024x28_o0_20_S1024x4 rfl
  | 6 => exact key 24 slices_S1024x28_o0_24_S1024x4 rfl

/-- The repeated bias row at (r, h) is the bias at h. -/
theorem biasRows_apply (b : Vec Ideal S128 .f32) (r : Fin 1024) (h : Fin 128) : biasRows b (ix2 r h) = b (ix1 h) :=
  (broadcastTo_1b_ab_apply _ broadcasts_S1x128_S1024x128 r h).trans (shapeCast_a_1a_apply b shapeCasts_S128_S1x128 0 h)

/-- The zero the body clamps at and starts its sums from. -/
theorem zero_scalar : (Scalar.ofBits (F := Ideal) .f32 0x00000000#32) = (0 : EReal) := Cert.Encoder.zero_word

/-- relu (x W + b) at (r, h). -/
theorem propBlock_apply (xi : FVec Ideal S1024x4 .f32) (w : FVec Ideal S4x128 .bf16) (b : Vec Ideal S128 .f32) (r : Fin 1024) (h : Fin 128) :
    propBlock xi w b (ix2 r h) = max (∑ d : Fin 4, xi (ix2 r d) * w (ix2 d h) + b (ix1 h)) 0 := by
  have hm : matmul dot_S1024x4_S4x128_S1024x128_1_0_0_1_n_n none (truncf .bf16 xi bitsLt_bf16_f32) w (constant S1024x128 .f32 0x00000000#32) (ix2 r h)
      = ∑ d : Fin 4, xi (ix2 r d) * w (ix2 d h) :=
    PlainDot.matmul_zero_apply 1024 4 128 (truncf .bf16 xi bitsLt_bf16_f32) w r h
  unfold propBlock
  rw [maximumf_apply, addf_apply, broadcast_apply, biasRows_apply, hm, zero_scalar]

/-- The relation features of the pair (i, j) of batch element r. -/
theorem featBlock_apply (x0 : Vec Ideal S28x1024 .f32) (i j : Fin 7) (r : Fin 1024) (d : Fin 5) :
    featBlock (ent x0 i) (ent x0 j) (ix2 r d) = Cert.Encoder.feat (fun i d => x0 (ix2 (entRow i d) r)) i j d := by
  unfold featBlock Cert.Encoder.feat
  split
  · next hd =>
    refine (concatenate_pair_apply_left _ _ _ concatenates_S1024x4_S1024x1_S1024x5_d1 (ix2 r d) rfl (ix2 r ⟨d.val, hd⟩) (fun b => ?_)).trans ?_
    · match b with
      | ⟨0, _⟩ => rfl
      | ⟨1, _⟩ => rfl
    · rw [subf_apply, ent_apply, ent_apply]
  · next hd =>
    refine (concatenate_pair_apply_right _ _ _ concatenates_S1024x4_S1024x1_S1024x5_d1 (ix2 r d) rfl rfl (ix2 r (0 : Fin 1)) (fun b hb => ?_) ?_).trans ?_
    · match b with
      | ⟨0, _⟩ => rfl
      | ⟨1, _⟩ => exact absurd rfl hb
    · show 0 + 4 = d.val
      have := d.isLt; omega
    · have s0 : extractStridedSlice S1024x1 ![0, 0] (subf (ent x0 i) (ent x0 j)) slices_S1024x4_o0_0_S1024x1 (ix2 r (0 : Fin 1))
          = x0 (ix2 (entRow i 0) r) - x0 (ix2 (entRow j 0) r) := by
        rw [slice2_axis1_apply 0 _ slices_S1024x4_o0_0_S1024x1 r (0 : Fin 1) (0 : Fin 4) rfl, subf_apply, ent_apply, ent_apply]
      have s1 : extractStridedSlice S1024x1 ![0, 1] (subf (ent x0 i) (ent x0 j)) slices_S1024x4_o0_1_S1024x1 (ix2 r (0 : Fin 1))
          = x0 (ix2 (entRow i 1) r) - x0 (ix2 (entRow j 1) r) := by
        rw [slice2_axis1_apply 1 _ slices_S1024x4_o0_1_S1024x1 r (0 : Fin 1) (1 : Fin 4) rfl, subf_apply, ent_apply, ent_apply]
      show Ideal.sqrt (_ * _ + _ * _) = _
      rw [s0, s1]

/-- relu (φ W + b) at (r, h) is the relation embedding of the pair. -/
theorem relBlock_apply (x0 : Vec Ideal S28x1024 .f32) (i j : Fin 7) (w : FVec Ideal S5x128 .bf16) (b : Vec Ideal S128 .f32) (r : Fin 1024) (h : Fin 128) :
    relBlock (ent x0 i) (ent x0 j) w b (ix2 r h)
      = Cert.Encoder.rel (fun i d => x0 (ix2 (entRow i d) r)) (fun d h => w (ix2 d h)) (fun h => b (ix1 h)) i j h := by
  have hm : matmul dot_S1024x5_S5x128_S1024x128_1_0_0_1_n_n none (truncf .bf16 (featBlock (ent x0 i) (ent x0 j)) bitsLt_bf16_f32) w (constant S1024x128 .f32 0x00000000#32) (ix2 r h)
      = ∑ d : Fin 5, featBlock (ent x0 i) (ent x0 j) (ix2 r d) * w (ix2 d h) :=
    PlainDot.matmul_zero_apply 1024 5 128 (truncf .bf16 (featBlock (ent x0 i) (ent x0 j)) bitsLt_bf16_f32) w r h
  unfold relBlock Cert.Encoder.rel
  rw [maximumf_apply, addf_apply, broadcast_apply, biasRows_apply, hm, zero_scalar]
  simp only [featBlock_apply]

/-- Property embedding of entity i at (r, h). -/
theorem propBlock_ent (x0 : Vec Ideal S28x1024 .f32) (i : Fin 7) (w : FVec Ideal S4x128 .bf16) (b : Vec Ideal S128 .f32) (r : Fin 1024) (h : Fin 128) :
    propBlock (ent x0 i) w b (ix2 r h)
      = Cert.Encoder.prop (fun i d => x0 (ix2 (entRow i d) r)) (fun d h => w (ix2 d h)) (fun h => b (ix1 h)) i h := by
  rw [propBlock_apply]
  unfold Cert.Encoder.prop
  simp only [ent_apply]

/-- One row of the output block: the left half below lane 128, the right half from lane 128 on. -/
theorem rowBlock_apply (p q : FVec Ideal S1024x128 .f32) (r : Fin 1024) (u : Fin 1) (h : Fin 256) :
    rowBlock p q (ix3 r u h) = if hh : h.val < 128 then p (ix2 r ⟨h.val, hh⟩) else q (ix2 r ⟨h.val - 128, by have := h.isLt; omega⟩) := by
  unfold rowBlock
  refine (shapeCast_apply _ shapeCasts_S1024x256_S1024x1x256 (ix3 r u h) (ix2 r h) ?_).trans ?_
  · rw [Shape.rowMajor_val_two, Shape.rowMajor_val_three]
    show r.val * 256 + h.val = (r.val * 1 + u.val) * 256 + h.val
    have := u.isLt; omega
  · split
    · next hh =>
      refine concatenate_pair_apply_left _ _ _ concatenates_S1024x128_S1024x128_S1024x256_d1 (ix2 r h) rfl (ix2 r ⟨h.val, hh⟩) (fun b => ?_)
      match b with
      | ⟨0, _⟩ => rfl
      | ⟨1, _⟩ => rfl
    · next hh =>
      refine concatenate_pair_apply_right _ _ _ concatenates_S1024x128_S1024x128_S1024x256_d1 (ix2 r h) rfl rfl (ix2 r ⟨h.val - 128, by have := h.isLt; omega⟩) (fun b hb => ?_) ?_
      · match b with
        | ⟨0, _⟩ => rfl
        | ⟨1, _⟩ => exact absurd rfl hb
      · show h.val - 128 + 128 = h.val
        omega

end AtIdeal

/-! ## The output block -/

section Block

open Cert.Encoder (entRow)

variable (x0 : Vec Ideal S28x1024 .f32) (x1 : Vec Ideal S4x128 .f32) (x2 : Vec Ideal S128 .f32) (x3 : Vec Ideal S5x128 .f32) (x4 : Vec Ideal S128 .f32)

/-- The slab stored for entity i at (r, ·, h): the property embedding below lane 128, from lane 128 on the relation
    embeddings of its six partners added one after the other onto zero. -/
theorem piece_apply (i j0 j1 j2 j3 j4 j5 : Fin 7) (r : Fin 1024) (u : Fin 1) (h : Fin 256) :
    piece x0 x1 x2 x3 x4 i j0 j1 j2 j3 j4 j5 (ix3 r u h)
      = if hh : h.val < 128 then
          Cert.Encoder.prop (fun i d => x0 (ix2 (entRow i d) r)) (fun d h => x1 (ix2 d h)) (fun h => x2 (ix1 h)) i ⟨h.val, hh⟩
        else
          0 + Cert.Encoder.rel (fun i d => x0 (ix2 (entRow i d) r)) (fun d h => x3 (ix2 d h)) (fun h => x4 (ix1 h)) i j0 ⟨h.val - 128, by have := h.isLt; omega⟩
            + Cert.Encoder.rel (fun i d => x0 (ix2 (entRow i d) r)) (fun d h => x3 (ix2 d h)) (fun h => x4 (ix1 h)) i j1 ⟨h.val - 128, by have := h.isLt; omega⟩
            + Cert.Encoder.rel (fun i d => x0 (ix2 (entRow i d) r)) (fun d h => x3 (ix2 d h)) (fun h => x4 (ix1 h)) i j2 ⟨h.val - 128, by have := h.isLt; omega⟩
            + Cert.Encoder.rel (fun i d => x0 (ix2 (entRow i d) r)) (fun d h => x3 (ix2 d h)) (fun h => x4 (ix1 h)) i j3 ⟨h.val - 128, by have := h.isLt; omega⟩
            + Cert.Encoder.rel (fun i d => x0 (ix2 (entRow i d) r)) (fun d h => x3 (ix2 d h)) (fun h => x4 (ix1 h)) i j4 ⟨h.val - 128, by have := h.isLt; omega⟩
            + Cert.Encoder.rel (fun i d => x0 (ix2 (entRow i d) r)) (fun d h => x3 (ix2 d h)) (fun h => x4 (ix1 h)) i j5 ⟨h.val - 128, by have := h.isLt; omega⟩ := by
  unfold piece
  rw [rowBlock_apply]
  split
  · rw [propBlock_ent]; rfl
  · unfold acc6
    simp only [addf_apply, broadcast_apply, zero_scalar, relBlock_apply]
    rfl

/-- Row k of the block, as a rectangle of the block: its local index (r, ·, h) is the block's (r, k, h). -/
theorem emb_row (k : Nat) (hk : k < 7) (inb : ∀ a, (![0, k, 0] : Fin 3 → Nat) a + S1024x1x256.size a ≤ S1024x7x256.size a)
    (r : Fin 1024) (u : Fin 1) (h : Fin 256) :
    (Rect.unit (s := S1024x7x256) ![0, k, 0] S1024x1x256.size inb).emb (ix3 r u h) = ix3 r (⟨k, hk⟩ : Fin 7) h := by
  funext a
  apply Fin.ext
  match a with
  | ⟨0, _⟩ => show 0 + 1 * r.val = r.val; omega
  | ⟨1, _⟩ => show k + 1 * u.val = k; have := u.isLt; omega
  | ⟨2, _⟩ => show 0 + 1 * h.val = h.val; omega

/-- The slab of entity i, its partners in increasing order, is row i of the encoder's result for the block. -/
theorem piece_eq (i j0 j1 j2 j3 j4 j5 : Fin 7)
    (hsum : ∀ f : Fin 7 → EReal, ∑ j : Fin 7, f j * (if i = j then (0 : EReal) else 1) = 0 + f j0 + f j1 + f j2 + f j3 + f j4 + f j5)
    (r : Fin 1024) (u : Fin 1) (h : Fin 256) :
    piece x0 x1 x2 x3 x4 i j0 j1 j2 j3 j4 j5 (ix3 r u h) = Cert.Encoder.arr 1024 x0 x1 x2 x3 x4 (ix3 r i h) := by
  rw [piece_apply, Cert.Encoder.arr_ix3]
  unfold Cert.Encoder.at3 Cert.Encoder.row
  by_cases hh : h.val < 128
  · rw [dif_pos hh, dif_pos hh]
  · rw [dif_neg hh, dif_neg hh]
    unfold Cert.Encoder.relSum
    exact (hsum (fun j => Cert.Encoder.rel (fun i d => x0 (ix2 (entRow i d) r)) (fun d h => x3 (ix2 d h)) (fun h => x4 (ix1 h)) i j
      ⟨h.val - 128, by have := h.isLt; omega⟩)).symm

/-- The output block after the body, as one function of the input blocks. -/
theorem out_eq : out0_5 x0 x1 x2 x3 x4 = Cert.Encoder.arr 1024 x0 x1 x2 x3 x4 := by
  rw [out_pieces]
  funext y
  refine View.canon_apply_of_pieces (Val := Elt Ideal) (Cert.Encoder.arr 1024 x0 x1 x2 x3 x4) _ ?_ y (cover0_5 _ _ _ _ _ _ _ y)
  intro p hp x
  simp only [List.mem_cons, List.not_mem_nil, or_false] at hp
  rcases hp with rfl | rfl | rfl | rfl | rfl | rfl | rfl
  · rw [ValueIdx.eq_ix3 x]
    exact (piece_eq x0 x1 x2 x3 x4 6 0 1 2 3 4 5 Cert.Encoder.wsum_6 _ _ _).trans (congrArg _ (emb_row 6 (by omega) inb_S1024x7x256_S1024x1x256_0_6_0 (x 0) (x 1) (x 2)).symm)
  · rw [ValueIdx.eq_ix3 x]
    exact (piece_eq x0 x1 x2 x3 x4 5 0 1 2 3 4 6 Cert.Encoder.wsum_5 _ _ _).trans (congrArg _ (emb_row 5 (by omega) inb_S1024x7x256_S1024x1x256_0_5_0 (x 0) (x 1) (x 2)).symm)
  · rw [ValueIdx.eq_ix3 x]
    exact (piece_eq x0 x1 x2 x3 x4 4 0 1 2 3 5 6 Cert.Encoder.wsum_4 _ _ _).trans (congrArg _ (emb_row 4 (by omega) inb_S1024x7x256_S1024x1x256_0_4_0 (x 0) (x 1) (x 2)).symm)
  · rw [ValueIdx.eq_ix3 x]
    exact (piece_eq x0 x1 x2 x3 x4 3 0 1 2 4 5 6 Cert.Encoder.wsum_3 _ _ _).trans (congrArg _ (emb_row 3 (by omega) inb_S1024x7x256_S1024x1x256_0_3_0 (x 0) (x 1) (x 2)).symm)
  · rw [ValueIdx.eq_ix3 x]
    exact (piece_eq x0 x1 x2 x3 x4 2 0 1 3 4 5 6 Cert.Encoder.wsum_2 _ _ _).trans (congrArg _ (emb_row 2 (by omega) inb_S1024x7x256_S1024x1x256_0_2_0 (x 0) (x 1) (x 2)).symm)
  · rw [ValueIdx.eq_ix3 x]
    exact (piece_eq x0 x1 x2 x3 x4 1 0 2 3 4 5 6 Cert.Encoder.wsum_1 _ _ _).trans (congrArg _ (emb_row 1 (by omega) inb_S1024x7x256_S1024x1x256_0_1_0 (x 0) (x 1) (x 2)).symm)
  · rw [ValueIdx.eq_ix3 x]
    exact (piece_eq x0 x1 x2 x3 x4 0 1 2 3 4 5 6 Cert.Encoder.wsum_0 _ _ _).trans (congrArg _ (emb_row 0 (by omega) inb_S1024x7x256_S1024x1x256_0_0_0 (x 0) (x 1) (x 2)).symm)

end Block

end Cert.KernelIdeal.Enc

end
-- ==== Proof.KernelArray.lean ====
/-
  From blocks to the array: grid point t writes rows 1024 t .. 1024 t + 1023 of the result, the sixteen points
  cover all 16384 rows, so after the run the result array is the encoder's function of the argument arrays.
-/
import proofs.«150759_j28845000360164_1_alg».proof.Proof.Gen.KernelIdeal.Value
import proofs.«150759_j28845000360164_1_alg».proof.Proof.KernelBlock

noncomputable section

namespace Cert.KernelIdeal.Enc

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The index maps over the sixteen points -/

/-- Point t reads column block t of the table and all of each weight array, and writes row block t of the result. -/
theorem index_facts : ∀ t : Fin cfg0.N,
    win0_0.index t (0 : Fin 2) = 0
    ∧ win0_0.index t (1 : Fin 2) = win0_5.index t (0 : Fin 3)
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 3) = 0 ∧ win0_5.index t (2 : Fin 3) = 0
    ∧ win0_5.index t (0 : Fin 3) ≤ 15 :=
  (by decide +kernel : ∀ t : Fin grid0.N, _)

/-- Every one of the sixteen row blocks of the result is some point's. -/
theorem index_onto : ∀ q : Fin 16, ∃ t : Fin cfg0.N, win0_5.index t (0 : Fin 3) = q.val :=
  (by decide +kernel : ∀ q : Fin 16, ∃ t : Fin grid0.N, win0_5.index t (0 : Fin 3) = q.val)

/-! ## The encoder on a block of columns -/

/-- The encoder's value at batch element b of a block of columns is its value at batch element b' of the whole table
    when column b of the block is column b' of the table: a batch element's result reads only its own column. -/
theorem at3_of_blocks (ctx : S28x16384.Idx → EReal) (x0 : S28x1024.Idx → EReal)
    (wp x1 : S4x128.Idx → EReal) (bp x2 : S128.Idx → EReal) (wr x3 : S5x128.Idx → EReal) (br x4 : S128.Idx → EReal)
    (h1 : x1 = wp) (h2 : x2 = bp) (h3 : x3 = wr) (h4 : x4 = br)
    (b : Fin 1024) (b' : Fin 16384) (h0 : ∀ k : Fin 28, x0 (ix2 k b) = ctx (ix2 k b'))
    (i i' : Fin 7) (hi : i.val = i'.val) (h h' : Fin 256) (hh : h.val = h'.val) :
    Cert.Encoder.at3 1024 x0 x1 x2 x3 x4 b i h = Cert.Encoder.at3 16384 ctx wp bp wr br b' i' h' := by
  subst h1 h2 h3 h4
  obtain rfl : i = i' := Fin.ext hi
  obtain rfl : h = h' := Fin.ext hh
  unfold Cert.Encoder.at3
  congr 1
  funext i d
  exact h0 _

/-! ## The input blocks of a point, read in the argument arrays -/

/-- Column r of point t's block of the table is column 1024 q + r of the table, q the point's block index. -/
theorem table_block (c : Dev nD) (t : Fin cfg0.N) (k : Fin 28) (r : Fin 1024) (b' : Fin 16384)
    (hb : b'.val = win0_5.index t (0 : Fin 3) * 1024 + r.val) :
    (iblk m c 0 t : Vec Ideal S28x1024 .f32) (ix2 k r) = (V m c main_arg0 : S28x16384.Idx → EReal) (ix2 k b') := by
  obtain ⟨e00, e01, -⟩ := index_facts t
  show V m c main_arg0 (((cfg0.win 0).blk t).view.emb (ix2 k r)) = V m c main_arg0 (ix2 k b')
  refine congrArg _ (funext fun a => Fin.ext ?_)
  match a with
  | ⟨0, _⟩ => show win0_0.index t (0 : Fin 2) * 28 + 1 * k.val = k.val; omega
  | ⟨1, _⟩ => show win0_0.index t (1 : Fin 2) * 1024 + 1 * r.val = b'.val; omega

/-- Every point's block of the first weight matrix is the whole matrix. -/
theorem wp_block (c : Dev nD) (t : Fin cfg0.N) :
    (iblk m c 1 t : Vec Ideal S4x128 .f32) = (V m c main_arg1 : S4x128.Idx → EReal) := by
  obtain ⟨-, -, e10, e11, -⟩ := index_facts t
  funext y
  show V m c main_arg1 (((cfg0.win 1).blk t).view.emb y) = V m c main_arg1 y
  refine congrArg _ (funext fun a => Fin.ext ?_)
  match a with
  | ⟨0, _⟩ => show win0_1.index t (0 : Fin 2) * 4 + 1 * (y 0).val = (y 0).val; omega
  | ⟨1, _⟩ => show win0_1.index t (1 : Fin 2) * 128 + 1 * (y 1).val = (y 1).val; omega

/-- Every point's block of the first bias is the whole bias. -/
theorem bp_block (c : Dev nD) (t : Fin cfg0.N) :
    (iblk m c 2 t : Vec Ideal S128 .f32) = (V m c main_arg2 : S128.Idx → EReal) := by
  obtain ⟨-, -, -, -, e20, -⟩ := index_facts t
  funext y
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; omega

/-- Every point's block of the second weight matrix is the whole matrix. -/
theorem wr_block (c : Dev nD) (t : Fin cfg0.N) :
    (iblk m c 3 t : Vec Ideal S5x128 .f32) = (V m c main_arg3 : S5x128.Idx → EReal) := by
  obtain ⟨-, -, -, -, -, e30, e31, -⟩ := index_facts t
  funext y
  show V m c main_arg3 (((cfg0.win 3).blk t).view.emb y) = V m c main_arg3 y
  refine congrArg _ (funext fun a => Fin.ext ?_)
  match a with
  | ⟨0, _⟩ => show win0_3.index t (0 : Fin 2) * 5 + 1 * (y 0).val = (y 0).val; omega
  | ⟨1, _⟩ => show win0_3.index t (1 : Fin 2) * 128 + 1 * (y 1).val = (y 1).val; omega

/-- Every point's block of the second bias is the whole bias. -/
theorem br_block (c : Dev nD) (t : Fin cfg0.N) :
    (iblk m c 4 t : Vec Ideal S128 .f32) = (V m c main_arg4 : S128.Idx → EReal) := by
  obtain ⟨-, -, -, -, -, -, -, e40, -⟩ := index_facts t
  funext y
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; omega

/-! ## What a point writes back -/

/-- What point t writes back is its block of the encoder's result array for the whole table: row r of the block is
    row 1024 q + r of the array, and it reads column r of the point's block of the table, which is column 1024 q + r
    of the table. -/
theorem point_eq (c : Dev nD) (t : Fin cfg0.N) :
    (dats m 0 c).flushed 5 t = ((cfg0.win 5).blk t).view.read (Elt Ideal)
      (Cert.Encoder.arr 16384 (V m c main_arg0) (V m c main_arg1) (V m c main_arg2) (V m c main_arg3) (V m c main_arg4)) := by
  rw [Value.flushed5]
  refine (congrArg ((cfg0.win 5).cut (grid0.coords t)) (out_eq (iblk m c 0 t) (iblk m c 1 t) (iblk m c 2 t) (iblk m c 3 t) (iblk m c 4 t))).trans ?_
  obtain ⟨-, -, -, -, -, -, -, -, e51, e52, e5⟩ := index_facts t
  funext j
  show Cert.Encoder.at3 1024 (iblk m c 0 t) (iblk m c 1 t) (iblk m c 2 t) (iblk m c 3 t) (iblk m c 4 t) (j 0) (j 1) (j 2)
    = Cert.Encoder.at3 16384 (V m c main_arg0) (V m c main_arg1) (V m c main_arg2) (V m c main_arg3) (V m c main_arg4)
        ((((cfg0.win 5).blk t).view.emb j) 0) ((((cfg0.win 5).blk t).view.emb j) 1) ((((cfg0.win 5).blk t).view.emb j) 2)
  refine at3_of_blocks (V m c main_arg0) (iblk m c 0 t) (V m c main_arg1) (iblk m c 1 t) (V m c main_arg2) (iblk m c 2 t)
    (V m c main_arg3) (iblk m c 3 t) (V m c main_arg4) (iblk m c 4 t) (wp_block m c t) (bp_block m c t) (wr_block m c t) (br_block m c t)
    (j 0) _ (fun k => table_block m c t k (j 0) _ ?_) (j 1) _ ?_ (j 2) _ ?_
  · show win0_5.index t (0 : Fin 3) * 1024 + 1 * (j 0).val = win0_5.index t (0 : Fin 3) * 1024 + (j 0).val
    omega
  · show (j 1).val = win0_5.index t (1 : Fin 3) * 7 + 1 * (j 1).val
    omega
  · show (j 2).val = win0_5.index t (2 : Fin 3) * 256 + 1 * (j 2).val
    omega

/-! ## The sixteen blocks cover the result array -/

/-- An index of the result array is in point t's block iff each coordinate is in the block's range on its axis. -/
theorem mem_block (t : Fin cfg0.N) (i : S16384x7x256.Idx) :
    i ∈ ((cfg0.win 5).blk t).view.set ↔ ∀ a : Fin 3, win0_5.index t a * S1024x7x256.size a ≤ (i a).val
      ∧ (i a).val < win0_5.index t a * S1024x7x256.size a + S1024x7x256.size a := by
  show i ∈ ((View.whole main_v0).slice (win0_5.rect t)).set ↔ _
  rw [View.set_slice_whole, Rect.mem_set_unit]
  exact Iff.rfl

/-- Row r of the result array lies in the block of the point whose block index is r / 1024. -/
theorem cover (i : S16384x7x256.Idx) :
    ∃ t : Fin cfg0.N, (cfg0.win 5).flush t = true ∧ i ∈ ((cfg0.win 5).blk t).view.set := by
  have hi0 : (i 0).val < 16384 := (i 0).isLt
  have hi1 : (i 1).val < 7 := (i 1).isLt
  have hi2 : (i 2).val < 256 := (i 2).isLt
  obtain ⟨t, ht⟩ := index_onto ⟨(i 0).val / 1024, by omega⟩
  have q0 : win0_5.index t (0 : Fin 3) = (i 0).val / 1024 := ht
  obtain ⟨-, -, -, -, -, -, -, -, e51, e52, -⟩ := index_facts t
  refine ⟨t, flush0_5 t, ?_⟩
  rw [mem_block]
  intro a
  match a with
  | ⟨0, _⟩ => show win0_5.index t (0 : Fin 3) * 1024 ≤ (i 0).val ∧ (i 0).val < win0_5.index t (0 : Fin 3) * 1024 + 1024; omega
  | ⟨1, _⟩ => show win0_5.index t (1 : Fin 3) * 7 ≤ (i 1).val ∧ (i 1).val < win0_5.index t (1 : Fin 3) * 7 + 7; omega
  | ⟨2, _⟩ => show win0_5.index t (2 : Fin 3) * 256 ≤ (i 2).val ∧ (i 2).val < win0_5.index t (2 : Fin 3) * 256 + 256; omega

/-! ## The result array after the run -/

/-- After the last point the result array is the encoder's function of the argument arrays. -/
theorem final (c : Dev nD) : (dats m 0 c).arrAt 5 cfg0.N
    = Cert.Encoder.arr 16384 (m ((c : Thread nD τ).loc main_arg0)) (m ((c : Thread nD τ).loc main_arg1))
        (m ((c : Thread nD τ).loc main_arg2)) (m ((c : Thread nD τ).loc main_arg3)) (m ((c : Thread nD τ).loc main_arg4)) := by
  have h := (dats m 0 c).arrAt_eq_of_cover 5
    (Cert.Encoder.arr 16384 (V m c main_arg0) (V m c main_arg1) (V m c main_arg2) (V m c main_arg3) (V m c main_arg4))
    (fun t _ => point_eq m c t) cover
  rw [V_main_arg0, V_main_arg1, V_main_arg2, V_main_arg3, V_main_arg4] at h
  exact h

/-- The kernel's run: the result array is the encoder's function of the argument arrays, the arguments unchanged. -/
theorem run : θ_run defs (onTc (τ := τ) (main (F := Ideal))) ⟨m, fun _ => 0, ρ⟩ fun r => ∀ c : Dev nD,
      r.2.mem ((c : Thread nD τ).loc main_v0) = Cert.Encoder.arr 16384 (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Enc

end
-- ==== Proof.RefValue.lean ====
/-
  The reference, one operation at a time, is the encoder's function of the argument arrays.
-/
import proofs.«150759_j28845000360164_1_alg».proof.Proof.Gen.ReferenceIdeal.Read
import proofs.«150759_j28845000360164_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-! ## The entity table

The transposed table reshaped to batch x entity x coordinate: element (b, i, d) is row 4 i + d, column b of the
feature-major argument, since ((7 b + i) 4 + d) = 28 b + (4 i + d) with 4 i + d < 28. -/

theorem ents_apply (x0 : (⟨S28x16384, .f32⟩ : BufTy).Contents (Elt Ideal)) (b : Fin 16384) (i : Fin 7) (d : Fin 4) :
    val_main_v1 (F := Ideal) x0 (ix3 b i d) = x0 (ix2 (Cert.Encoder.entRow i d) b) := by
  rw [val_main_v1_apply, val_main_v0_apply]
  refine congrArg x0 (funext fun a => ?_)
  have hb := b.isLt; have hi := i.isLt; have hd := d.isLt
  match a with
  | ⟨0, _⟩ =>
    refine Fin.ext ?_
    show ((b.val * 7 + i.val) * 4 + d.val) % 28 = 4 * i.val + d.val
    omega
  | ⟨1, _⟩ =>
    refine Fin.ext ?_
    show ((b.val * 7 + i.val) * 4 + d.val) / 28 = b.val
    omega

/-! ## The property half: a 4-term product sum, the bias, the maximum with the zero constant -/

theorem prop_apply (x0 : (⟨S28x16384, .f32⟩ : BufTy).Contents (Elt Ideal)) (x1 : (⟨S4x128, .f32⟩ : BufTy).Contents (Elt Ideal))
    (x2 : (⟨S128, .f32⟩ : BufTy).Contents (Elt Ideal)) (b : Fin 16384) (i : Fin 7) (h : Fin 128) :
    val_main_v6 (F := Ideal) x0 x1 x2 (ix3 b i h)
      = Cert.Encoder.prop (fun i d => x0 (ix2 (Cert.Encoder.entRow i d) b)) (fun d h => x1 (ix2 d h)) (fun h => x2 (ix1 h)) i h := by
  rw [val_main_v6_apply, val_main_v5_apply, val_main_v2_apply, val_main_v4_apply, val_main_v3_apply,
    val_main_call0_v0_apply, val_main_call0_cst_apply, Ideal.maximumf_def, Ideal.addf_def, Ideal.ofBits_def,
    Cert.Encoder.zero_word]
  unfold Cert.Encoder.prop
  have hbias : x2 (idx_main_v3 (idx_main_v4 (ix3 b i h))) = x2 (ix1 h) :=
    congrArg x2 (funext fun a => match a with | ⟨0, _⟩ => rfl)
  rw [hbias]
  refine congrArg (fun s => max (s + x2 (ix1 h)) 0) (Finset.sum_congr rfl fun d _ => ?_)
  have hl : lidx_main_v2 (ix3 b i h) d = ix3 b i d :=
    funext fun a => match a with | ⟨0, _⟩ => rfl | ⟨1, _⟩ => rfl | ⟨2, _⟩ => rfl
  have hr : ridx_main_v2 (ix3 b i h) d = ix2 d h :=
    funext fun a => match a with | ⟨0, _⟩ => rfl | ⟨1, _⟩ => rfl
  rw [hl, hr, ents_apply]

/-! ## The pairwise differences and the planar distance -/

theorem diff_apply (x0 : (⟨S28x16384, .f32⟩ : BufTy).Contents (Elt Ideal)) (b : Fin 16384) (i k : Fin 7) (d : Fin 4) :
    val_main_v11 (F := Ideal) x0 (ix4 b i k d)
      = x0 (ix2 (Cert.Encoder.entRow i d) b) - x0 (ix2 (Cert.Encoder.entRow k d) b) := by
  rw [val_main_v11_apply, val_main_v9_apply, val_main_v7_apply, val_main_v10_apply, val_main_v8_apply, Ideal.subf_def]
  have hl : idx_main_v7 (idx_main_v9 (ix4 b i k d)) = ix3 b i d :=
    funext fun a => match a with | ⟨0, _⟩ => rfl | ⟨1, _⟩ => rfl | ⟨2, _⟩ => rfl
  have hr : idx_main_v8 (idx_main_v10 (ix4 b i k d)) = ix3 b k d :=
    funext fun a => match a with | ⟨0, _⟩ => rfl | ⟨1, _⟩ => rfl | ⟨2, _⟩ => rfl
  rw [hl, hr, ents_apply, ents_apply]

/-- Dropping the unit axis of batch x entity x entity x 1 keeps the three coordinates. -/
theorem unit_idx (b : Fin 16384) (i k : Fin 7) :
    idx_main_v13 (ix3 b i k) = ix4 b i k (0 : Fin 1) := by
  have hb := b.isLt; have hi := i.isLt; have hk := k.isLt
  refine funext fun a => ?_
  match a with
  | ⟨0, _⟩ =>
    refine Fin.ext ?_
    show ((b.val * 7 + i.val) * 7 + k.val) / 49 = b.val
    omega
  | ⟨1, _⟩ =>
    refine Fin.ext ?_
    show ((b.val * 7 + i.val) * 7 + k.val) / 7 % 7 = i.val
    omega
  | ⟨2, _⟩ =>
    refine Fin.ext ?_
    show ((b.val * 7 + i.val) * 7 + k.val) / 1 % 7 = k.val
    omega
  | ⟨3, _⟩ => rfl

theorem slice0_apply (x0 : (⟨S28x16384, .f32⟩ : BufTy).Contents (Elt Ideal)) (b : Fin 16384) (i k : Fin 7) :
    val_main_v13 (F := Ideal) x0 (ix3 b i k)
      = x0 (ix2 (Cert.Encoder.entRow i 0) b) - x0 (ix2 (Cert.Encoder.entRow k 0) b) := by
  rw [val_main_v13_apply, unit_idx, val_main_v12_apply]
  have h : idx_main_v12 (ix4 b i k (0 : Fin 1)) = ix4 b i k (0 : Fin 4) :=
    funext fun a => match a with | ⟨0, _⟩ => rfl | ⟨1, _⟩ => rfl | ⟨2, _⟩ => rfl | ⟨3, _⟩ => rfl
  rw [h, diff_apply]

theorem slice1_apply (x0 : (⟨S28x16384, .f32⟩ : BufTy).Contents (Elt Ideal)) (b : Fin 16384) (i k : Fin 7) :
    val_main_v16 (F := Ideal) x0 (ix3 b i k)
      = x0 (ix2 (Cert.Encoder.entRow i 1) b) - x0 (ix2 (Cert.Encoder.entRow k 1) b) := by
  rw [val_main_v16_apply]
  have hu : idx_main_v16 (ix3 b i k) = ix4 b i k (0 : Fin 1) := unit_idx b i k
  rw [hu, val_main_v15_apply]
  have h : idx_main_v15 (ix4 b i k (0 : Fin 1)) = ix4 b i k (1 : Fin 4) :=
    funext fun a => match a with | ⟨0, _⟩ => rfl | ⟨1, _⟩ => rfl | ⟨2, _⟩ => rfl | ⟨3, _⟩ => rfl
  rw [h, diff_apply]

theorem dist_apply (x0 : (⟨S28x16384, .f32⟩ : BufTy).Contents (Elt Ideal)) (b : Fin 16384) (i k : Fin 7) :
    val_main_v20 (F := Ideal) x0 (ix4 b i k (0 : Fin 1))
      = Ideal.sqrt ((x0 (ix2 (Cert.Encoder.entRow i 0) b) - x0 (ix2 (Cert.Encoder.entRow k 0) b))
            * (x0 (ix2 (Cert.Encoder.entRow i 0) b) - x0 (ix2 (Cert.Encoder.entRow k 0) b))
          + (x0 (ix2 (Cert.Encoder.entRow i 1) b) - x0 (ix2 (Cert.Encoder.entRow k 1) b))
            * (x0 (ix2 (Cert.Encoder.entRow i 1) b) - x0 (ix2 (Cert.Encoder.entRow k 1) b))) := by
  rw [val_main_v20_apply]
  have h : idx_main_v20 (ix4 b i k (0 : Fin 1)) = ix3 b i k :=
    funext fun a => match a with | ⟨0, _⟩ => rfl | ⟨1, _⟩ => rfl | ⟨2, _⟩ => rfl
  rw [h, val_main_v19_apply, val_main_v18_apply, val_main_v14_apply, val_main_v17_apply, slice0_apply, slice1_apply,
    Ideal.hostUnary_sqrt_def, Ideal.addf_def, Ideal.mulf_def, Ideal.mulf_def]

/-! ## The relation feature: four differences, then the distance, joined along the last axis -/

theorem feat_apply (x0 : (⟨S28x16384, .f32⟩ : BufTy).Contents (Elt Ideal)) (b : Fin 16384) (i k : Fin 7) (d : Fin 5) :
    val_main_v21 (F := Ideal) x0 (ix4 b i k d)
      = Cert.Encoder.feat (fun i d => x0 (ix2 (Cert.Encoder.entRow i d) b)) i k d := by
  unfold Cert.Encoder.feat val_main_v21
  by_cases hd : d.val < 4
  · rw [dif_pos hd]
    refine (concatenate_pair_apply_left (t := S16384x7x7x5) (s₁ := S16384x7x7x4) (s₂ := S16384x7x7x1) 3 _ _ _ (ix4 b i k d) rfl (ix4 b i k (⟨d.val, hd⟩ : Fin 4))
      (fun a => match a with | ⟨0, _⟩ => rfl | ⟨1, _⟩ => rfl | ⟨2, _⟩ => rfl | ⟨3, _⟩ => rfl)).trans ?_
    exact diff_apply x0 b i k ⟨d.val, hd⟩
  · rw [dif_neg hd]
    have hd4 : 0 + 4 = d.val := by have := d.isLt; omega
    refine (concatenate_pair_apply_right (t := S16384x7x7x5) (s₁ := S16384x7x7x4) (s₂ := S16384x7x7x1) 3 _ _ _ (ix4 b i k d) rfl rfl (ix4 b i k (0 : Fin 1))
      (fun a ha => match a, ha with
        | ⟨0, _⟩, _ => rfl | ⟨1, _⟩, _ => rfl | ⟨2, _⟩, _ => rfl | ⟨3, _⟩, ha => absurd rfl ha) hd4).trans ?_
    exact dist_apply x0 b i k

/-! ## The off-diagonal weight: one minus the indicator of the diagonal -/

/-- The equality test of two words answers 1 exactly when they are equal. -/
theorem cmpi_eq_one_iff (x y : BitVec 32) : IntOp.cmpi .eq x y = 1#1 ↔ x = y := by
  show BitVec.ofBool (x == y) = 1#1 ↔ x = y
  cases hb : (x == y)
  · have hne : ¬ x = y := fun h => by rw [beq_iff_eq.mpr h] at hb; exact Bool.noConfusion hb
    exact ⟨fun h => absurd h (by decide), fun h => absurd h hne⟩
  · exact ⟨fun _ => beq_iff_eq.mp hb, fun _ => rfl⟩

/-- The comparison of two small counters, converted to a number: 1 on the diagonal and 0 off it. -/
theorem diag_word (i k : Fin 7) :
    FloatOps.uitofp (F := Ideal) .f32 (IntOp.cmpi .eq (IntOp.addi (BitVec.ofNat 32 i.val) 0#32) (BitVec.ofNat 32 k.val))
      = if i = k then (1 : EReal) else 0 := by
  show (((IntOp.cmpi .eq (IntOp.addi (BitVec.ofNat 32 i.val) 0#32) (BitVec.ofNat 32 k.val)).toNat : ℝ) : EReal) = _
  have hadd : IntOp.addi (BitVec.ofNat 32 i.val) 0#32 = BitVec.ofNat 32 i.val := BitVec.add_zero _
  rw [hadd]
  by_cases hik : i = k
  · subst hik
    rw [if_pos rfl, (cmpi_eq_one_iff _ _).mpr rfl]
    simp
  · rw [if_neg hik]
    have hne : ¬ IntOp.cmpi .eq (BitVec.ofNat 32 i.val) (BitVec.ofNat 32 k.val) = 1#1 := by
      intro h
      have h2 := congrArg BitVec.toNat ((cmpi_eq_one_iff _ _).mp h)
      simp only [BitVec.toNat_ofNat] at h2
      have hi := i.isLt; have hk := k.isLt
      exact hik (Fin.ext (by omega))
    rw [eq_zero_of_ne_one hne]
    simp

theorem mask_apply (b : Fin 16384) (i k : Fin 7) (h : Fin 128) :
    val_main_v36 (F := Ideal) (ix4 b i k h) = if i = k then (0 : EReal) else 1 := by
  rw [val_main_v36_apply, val_main_v35_apply]
  have hx : idx_main_v35 (idx_main_v36 (ix4 b i k h)) = ix2 i k :=
    funext fun a => match a with | ⟨0, _⟩ => rfl | ⟨1, _⟩ => rfl
  rw [hx, val_main_v34_apply, val_main_v33_apply, val_main_cst_apply, val_main_v32_apply, val_main_v31_apply,
    val_main_v30_apply, val_main_v27_apply, val_main_v28_apply, val_main_v29_apply, val_main_c_apply,
    Ideal.subf_def, Ideal.ofBits_def, Cert.Encoder.one_word]
  show (1 : EReal) - FloatOps.uitofp (F := Ideal) .f32 (IntOp.cmpi .eq (IntOp.addi (BitVec.ofNat 32 i.val) 0#32) (BitVec.ofNat 32 k.val)) = _
  rw [diag_word]
  by_cases hik : i = k
  · rw [if_pos hik, if_pos hik]
    exact EReal.sub_self (by decide) (by decide)
  · rw [if_neg hik, if_neg hik]; exact sub_zero _

/-! ## The relation half: a 5-term product sum, the bias, the maximum with zero; then the weighted sum over partners -/

theorem rel_apply (x0 : (⟨S28x16384, .f32⟩ : BufTy).Contents (Elt Ideal)) (x3 : (⟨S5x128, .f32⟩ : BufTy).Contents (Elt Ideal))
    (x4 : (⟨S128, .f32⟩ : BufTy).Contents (Elt Ideal)) (b : Fin 16384) (i k : Fin 7) (h : Fin 128) :
    val_main_v26 (F := Ideal) x0 x3 x4 (ix4 b i k h)
      = Cert.Encoder.rel (fun i d => x0 (ix2 (Cert.Encoder.entRow i d) b)) (fun d h => x3 (ix2 d h)) (fun h => x4 (ix1 h)) i k h := by
  rw [val_main_v26_apply, val_main_v25_apply, val_main_v22_apply, val_main_v24_apply, val_main_v23_apply,
    val_main_call1_v0_apply, val_main_call1_cst_apply, Ideal.maximumf_def, Ideal.addf_def, Ideal.ofBits_def,
    Cert.Encoder.zero_word]
  unfold Cert.Encoder.rel
  have hbias : x4 (idx_main_v23 (idx_main_v24 (ix4 b i k h))) = x4 (ix1 h) :=
    congrArg x4 (funext fun a => match a with | ⟨0, _⟩ => rfl)
  rw [hbias]
  refine congrArg (fun s => max (s + x4 (ix1 h)) 0) (Finset.sum_congr rfl fun d _ => ?_)
  have hl : lidx_main_v22 (ix4 b i k h) d = ix4 b i k d :=
    funext fun a => match a with | ⟨0, _⟩ => rfl | ⟨1, _⟩ => rfl | ⟨2, _⟩ => rfl | ⟨3, _⟩ => rfl
  have hr : ridx_main_v22 (ix4 b i k h) d = ix2 d h :=
    funext fun a => match a with | ⟨0, _⟩ => rfl | ⟨1, _⟩ => rfl
  rw [hl, hr, feat_apply]

theorem relSum_apply (x0 : (⟨S28x16384, .f32⟩ : BufTy).Contents (Elt Ideal)) (x3 : (⟨S5x128, .f32⟩ : BufTy).Contents (Elt Ideal))
    (x4 : (⟨S128, .f32⟩ : BufTy).Contents (Elt Ideal)) (b : Fin 16384) (i : Fin 7) (h : Fin 128) :
    val_main_v38 (F := Ideal) x0 x3 x4 (ix3 b i h)
      = Cert.Encoder.relSum (fun i d => x0 (ix2 (Cert.Encoder.entRow i d) b)) (fun d h => x3 (ix2 d h)) (fun h => x4 (ix1 h)) i h := by
  rw [val_main_v38_apply, val_main_cst_0_apply, Ideal.ofBits_def, Cert.Encoder.zero_word, zero_add]
  unfold Cert.Encoder.relSum
  refine Finset.sum_congr rfl fun k _ => ?_
  have hx : idx_main_v38 (ix3 b i h) k = ix4 b i k h :=
    funext fun a => match a with | ⟨0, _⟩ => rfl | ⟨1, _⟩ => rfl | ⟨2, _⟩ => rfl | ⟨3, _⟩ => rfl
  rw [hx, val_main_v37_apply, Ideal.mulf_def, rel_apply, mask_apply]

/-! ## The two halves joined along the lane axis -/

/-- The reference's last stage is the encoder's function of the five argument arrays. -/
theorem ref_eq (x0 : (⟨S28x16384, .f32⟩ : BufTy).Contents (Elt Ideal)) (x1 : (⟨S4x128, .f32⟩ : BufTy).Contents (Elt Ideal))
    (x2 : (⟨S128, .f32⟩ : BufTy).Contents (Elt Ideal)) (x3 : (⟨S5x128, .f32⟩ : BufTy).Contents (Elt Ideal))
    (x4 : (⟨S128, .f32⟩ : BufTy).Contents (Elt Ideal)) :
    val_main_v39 (F := Ideal) x0 x1 x2 x3 x4 = Cert.Encoder.arr 16384 x0 x1 x2 x3 x4 := by
  funext y
  obtain ⟨b, i, h, rfl⟩ : ∃ (b : Fin 16384) (i : Fin 7) (h : Fin 256), y = ix3 b i h := ⟨y 0, y 1, y 2, eq_ix3 y⟩
  rw [Cert.Encoder.arr_ix3]
  unfold Cert.Encoder.at3 Cert.Encoder.row val_main_v39
  by_cases hh : h.val < 128
  · rw [dif_pos hh]
    refine (concatenate_pair_apply_left (t := S16384x7x256) (s₁ := S16384x7x128) (s₂ := S16384x7x128) 2 _ _ _
      (ix3 b i h) rfl (ix3 b i (⟨h.val, hh⟩ : Fin 128))
      (fun a => match a with | ⟨0, _⟩ => rfl | ⟨1, _⟩ => rfl | ⟨2, _⟩ => rfl)).trans ?_
    exact prop_apply x0 x1 x2 b i ⟨h.val, hh⟩
  · rw [dif_neg hh]
    have hlt : h.val - 128 < 128 := by have := h.isLt; omega
    have hsum : h.val - 128 + 128 = h.val := by omega
    refine (concatenate_pair_apply_right (t := S16384x7x256) (s₁ := S16384x7x128) (s₂ := S16384x7x128) 2 _ _ _
      (ix3 b i h) rfl rfl (ix3 b i (⟨h.val - 128, hlt⟩ : Fin 128))
      (fun a ha => match a, ha with
        | ⟨0, _⟩, _ => rfl | ⟨1, _⟩, _ => rfl | ⟨2, _⟩, ha => absurd rfl ha) hsum).trans ?_
    exact relSum_apply x0 x3 x4 b i ⟨h.val - 128, hlt⟩

end Cert.ReferenceIdeal.RefValue

end
-- ==== Proof.lean ====
/- The certificate's claims assembled.

   Both idealized programs end with the result array at ONE function of the five argument arrays (Proof/Spec.lean's
   arr at 16384 batch elements): the kernel by its sixteen grid points, each writing 1024 rows (Proof/KernelBlock.lean for
   one point's block, Proof/KernelArray.lean for the array), the reference by its host operations read one at a time
   (Proof/RefValue.lean). The three frames are the programs' runs with the result dropped; the idealization rewrote
   nothing, so there is nothing to preserve. -/
import proofs.«150759_j28845000360164_1_alg».proof.Defs
import proofs.«150759_j28845000360164_1_alg».proof.Proof.Gen.Kernel
import proofs.«150759_j28845000360164_1_alg».proof.Proof.Gen.Kernel.Skeleton
import proofs.«150759_j28845000360164_1_alg».proof.Proof.Gen.Kernel.Launch
import proofs.«150759_j28845000360164_1_alg».proof.Proof.Gen.Kernel.Points
import proofs.«150759_j28845000360164_1_alg».proof.Proof.Gen.Kernel.Frame
import proofs.«150759_j28845000360164_1_alg».proof.Proof.Gen.KernelIdeal
import proofs.«150759_j28845000360164_1_alg».proof.Proof.Gen.KernelIdeal.Skeleton
import proofs.«150759_j28845000360164_1_alg».proof.Proof.Gen.KernelIdeal.Launch
import proofs.«150759_j28845000360164_1_alg».proof.Proof.Gen.KernelIdeal.Points
import proofs.«150759_j28845000360164_1_alg».proof.Proof.Gen.KernelIdeal.Frame
import proofs.«150759_j28845000360164_1_alg».proof.Proof.Gen.ReferenceIdeal
import proofs.«150759_j28845000360164_1_alg».proof.Proof.Gen.Pre_finite_inputs
import proofs.«150759_j28845000360164_1_alg».proof.Proof.Gen.KernelIdeal.Value
import proofs.«150759_j28845000360164_1_alg».proof.Proof.Gen.ReferenceIdeal.Run
import proofs.«150759_j28845000360164_1_alg».proof.Proof.Gen.ReferenceIdeal.Read
import proofs.«150759_j28845000360164_1_alg».proof.Proof.KernelArray
import proofs.«150759_j28845000360164_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the encoder's function of arguments that agree. -/
theorem algebraic : Cert.algebraic_KernelIdeal_ReferenceIdeal := by
  intro m ρ m' ρ' _ hagree
  refine ⟨_, Cert.KernelIdeal.Enc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
